-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x1024x64 : Shape := ⟨4, ![2, 12, 1024, 64]⟩
abbrev S2x12x64x1024 : Shape := ⟨4, ![2, 12, 64, 1024]⟩
abbrev S1 : Shape := ⟨1, ![1]⟩
abbrev S_ : Shape := ⟨0, ![]⟩

class Facts : Prop where
  bcast_S_S2x12x1024x64 : S_.BroadcastsInDim S2x12x1024x64 (![] : Fin 0 → Fin S2x12x1024x64.rank)
  reducesTo_S2x12x1024x64_S_d0_1_2_3 : S2x12x1024x64.ReducesTo [0, 1, 2, 3] S_
  h_S_ : 0 < S_.numel
  bcast_S_S2x12x64x1024 : S_.BroadcastsInDim S2x12x64x1024 (![] : Fin 0 → Fin S2x12x64x1024.rank)
  reducesTo_S2x12x64x1024_S_d0_1_2_3 : S2x12x64x1024.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x12x1024x64 .f32) (main_arg1 : FVec F S2x12x64x1024 .f32) (main_arg2 : FVec F S1 .f32) (main_arg3 : FVec F S1 .f32) : IVec S_ 1 :=
  let main_v0 : FVec F S2x12x1024x64 .f32 := Host.absf main_arg0
  let main_cst : FVec F S_ .f32 := constant S_ .f32 0x7F800000#32
  let main_v1 : FVec F S2x12x1024x64 .f32 := broadcastInDim S2x12x1024x64 ![] bcast_S_S2x12x1024x64 main_cst
  let main_v2 : IVec S2x12x1024x64 1 := cmpf .olt main_v0 main_v1
  let main_c : IVec S_ 1 := constantI S_ 1 1#1
  let main_v3 : IVec S_ 1 := (fun x v => Host.reduce IntOp.andi x v reducesTo_S2x12x1024x64_S_d0_1_2_3 h_S_) main_v2 main_c
  let main_v4 : FVec F S2x12x64x1024 .f32 := Host.absf main_arg1
  let main_cst_0 : FVec F S_ .f32 := constant S_ .f32 0x7F800000#32
  let main_v5 : FVec F S2x12x64x1024 .f32 := broadcastInDim S2x12x64x1024 ![] bcast_S_S2x12x64x1024 main_cst_0
  let main_v6 : IVec S2x12x64x1024 1 := cmpf .olt main_v4 main_v5
  let main_c_1 : IVec S_ 1 := constantI S_ 1 1#1
  let main_v7 : IVec S_ 1 := (fun x v => Host.reduce IntOp.andi x v reducesTo_S2x12x64x1024_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2x12x1024x64 : Shape := ⟨4, ![2, 12, 1024, 64]⟩
abbrev S2x12x64x1024 : Shape := ⟨4, ![2, 12, 64, 1024]⟩
abbrev S1 : Shape := ⟨1, ![1]⟩
abbrev S24x1024x64 : Shape := ⟨3, ![24, 1024, 64]⟩
abbrev S24x64x1024 : Shape := ⟨3, ![24, 64, 1024]⟩
abbrev S24x1024x1024 : Shape := ⟨3, ![24, 1024, 1024]⟩
abbrev S2x12x1024x1024 : Shape := ⟨4, ![2, 12, 1024, 1024]⟩
abbrev S1x1024x64 : Shape := ⟨3, ![1, 1024, 64]⟩
abbrev S1x64x1024 : Shape := ⟨3, ![1, 64, 1024]⟩
abbrev S1x1024x1024 : Shape := ⟨3, ![1, 1024, 1024]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x12x1024x64, .f32⟩
  | .hbm, ⟨1, _⟩ => ⟨S2x12x64x1024, .f32⟩
  | .hbm, ⟨2, _⟩ => ⟨S1, .f32⟩
  | .hbm, ⟨3, _⟩ => ⟨S1, .f32⟩
  | .hbm, ⟨4, _⟩ => ⟨S24x1024x64, .f32⟩
  | .hbm, ⟨5, _⟩ => ⟨S24x64x1024, .f32⟩
  | .hbm, ⟨6, _⟩ => ⟨S24x1024x1024, .f32⟩
  | .hbm, ⟨7, _⟩ => ⟨S2x12x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x1024, .f32⟩
  | .local _ .vmem, ⟨5, _⟩ => ⟨S1x1024x1024, .f32⟩
  | _, _ => ⟨S2x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x12x1024x64_S24x1024x64 : S2x12x1024x64.ShapeCasts S24x1024x64
  shapeCasts_S2x12x64x1024_S24x64x1024 : S2x12x64x1024.ShapeCasts S24x64x1024
  shapeCasts_S24x1024x1024_S2x12x1024x1024 : S24x1024x1024.ShapeCasts S2x12x1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S24x1024x64.size a
  hwx0_0 : ∀ i : grid0.Coords, EltTy.bits .f32 = 32 ∨ (Rect.block (s := S24x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S24x64x1024.size a
  hwx0_1 : ∀ i : grid0.Coords, EltTy.bits .f32 = 32 ∨ (Rect.block (s := S24x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S24x1024x1024.size a
  hwx0_2 : ∀ i : grid0.Coords, EltTy.bits .f32 = 32 ∨ (Rect.block (s := S24x1024x1024) S1x1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_call0_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x12x1024x64 : Shape := ⟨4, ![2, 12, 1024, 64]⟩
abbrev S2x12x64x1024 : Shape := ⟨4, ![2, 12, 64, 1024]⟩
abbrev S1 : Shape := ⟨1, ![1]⟩
abbrev S2x12x1024x1024 : Shape := ⟨4, ![2, 12, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x12x1024x64, .f32⟩
  | .hbm, ⟨1, _⟩ => ⟨S2x12x64x1024, .f32⟩
  | .hbm, ⟨2, _⟩ => ⟨S1, .f32⟩
  | .hbm, ⟨3, _⟩ => ⟨S1, .f32⟩
  | .hbm, ⟨4, _⟩ => ⟨S2x12x1024x1024, .f32⟩
  | _, _ => ⟨S2x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  dot_S2x12x1024x64_S2x12x64x1024_S2x12x1024x1024_3_2_2_3_01_01_wf : DotDims.WF S2x12x1024x64 S2x12x64x1024 S2x12x1024x1024 [3] [2] [2] [3] [0, 1] [0, 1]

variable [Facts₀]

def dot_S2x12x1024x64_S2x12x64x1024_S2x12x1024x1024_3_2_2_3_01_01 : DotDims S2x12x1024x64 S2x12x64x1024 S2x12x1024x1024 where
  lhsContracting := [3]
  rhsContracting := [2]
  lhsNonContracting := [2]
  rhsNonContracting := [3]
  lhsBatch := [0, 1]
  rhsBatch := [0, 1]
  wf := dot_S2x12x1024x64_S2x12x64x1024_S2x12x1024x1024_3_2_2_3_01_01_wf

class Facts : Prop extends Facts₀ where

variable [Facts]
-- ==== Proof.HeadProduct.lean ====
/-
  The mathematics both programs compute, stated once over plain index functions, with no program in sight.

  For each of the 2 × 12 (batch, head) pairs there is a 1024 × 64 matrix `a[p, q]` and a 64 × 1024 matrix
  `b[p, q]`; the result holds the 24 products `a[p, q] · b[p, q]`, entry (r, s) being `∑ k, a[p, q, r, k] · b[p, q, k, s]`
  over the extended reals (`perHead`). One program keeps the two leading axes apart; the other merges them into
  one axis of 24 slabs, multiplies slab by slab (`perSlab`), and splits the axis again. Merging and splitting are
  row-major reshapes, so slab `g = 12 p + q` of the merged array IS matrix (p, q) of the original one, and the two
  descriptions agree entry by entry (`perHead_of_perSlab`). Only the order of the index bookkeeping differs: the
  sums are the same finite sums of the same products, so no finiteness of the entries is needed.
-/
import Idealize.ShloMosaic.Lib.ValueIdx
import Idealize.ShloMosaic.Lib.Pipeline.Value
import Idealize.ShloMosaic.PureOps.Ideal.Laws

noncomputable section

namespace Cert.HeadProduct

open Idealize.ShloMosaic Idealize.ShloMosaic.ValueIdx

/-- The left operand with batch and head apart, [2, 12, 1024, 64]; -/
abbrev Lhs4 : Shape := ⟨4, ![2, 12, 1024, 64]⟩
/-- the right operand, [2, 12, 64, 1024]; -/
abbrev Rhs4 : Shape := ⟨4, ![2, 12, 64, 1024]⟩
/-- the result, [2, 12, 1024, 1024]; -/
abbrev Out4 : Shape := ⟨4, ![2, 12, 1024, 1024]⟩
/-- and the same three with batch and head merged into 24 slabs. -/
abbrev Lhs3 : Shape := ⟨3, ![24, 1024, 64]⟩
abbrev Rhs3 : Shape := ⟨3, ![24, 64, 1024]⟩
abbrev Out3 : Shape := ⟨3, ![24, 1024, 1024]⟩

/-- One matrix product per (batch, head): entry (p, q, r, s) is the sum over the 64 contracted positions of
    `a[p, q, r, k] · b[p, q, k, s]`. -/
def perHead (a : FVec Ideal Lhs4 .f32) (b : FVec Ideal Rhs4 .f32) : FVec Ideal Out4 .f32 :=
  fun i => ∑ k : Fin 64, a (ix4 (i 0) (i 1) (i 2) k) * b (ix4 (i 0) (i 1) k (i 3))

/-- One matrix product per slab: entry (g, r, s) is the sum over the 64 contracted positions of
    `a[g, r, k] · b[g, k, s]`. -/
def perSlab (a : FVec Ideal Lhs3 .f32) (b : FVec Ideal Rhs3 .f32) : FVec Ideal Out3 .f32 :=
  fun i => ∑ k : Fin 64, a (ix3 (i 0) (i 1) k) * b (ix3 (i 0) k (i 2))

/-- The merged left operand at slab `g = 12 p + q` is the original at (p, q): both sit at the same row-major position. -/
theorem merged_lhs {α : Type} (a : Lhs4.Idx → α) (h : Lhs4.ShapeCasts Lhs3) (p : Fin 2) (q : Fin 12) (g : Fin 24)
    (hg : g.val = p.val * 12 + q.val) (r : Fin 1024) (k : Fin 64) :
    shapeCast Lhs3 a h (ix3 g r k) = a (ix4 p q r k) :=
  shapeCast_apply a h (ix3 g r k) (ix4 p q r k) (by
    rw [Shape.rowMajor_val_four, Shape.rowMajor_val_three]
    show ((p.val * 12 + q.val) * 1024 + r.val) * 64 + k.val = (g.val * 1024 + r.val) * 64 + k.val
    rw [hg])

/-- The merged right operand at slab `g = 12 p + q` is the original at (p, q). -/
theorem merged_rhs {α : Type} (b : Rhs4.Idx → α) (h : Rhs4.ShapeCasts Rhs3) (p : Fin 2) (q : Fin 12) (g : Fin 24)
    (hg : g.val = p.val * 12 + q.val) (k : Fin 64) (s : Fin 1024) :
    shapeCast Rhs3 b h (ix3 g k s) = b (ix4 p q k s) :=
  shapeCast_apply b h (ix3 g k s) (ix4 p q k s) (by
    rw [Shape.rowMajor_val_four, Shape.rowMajor_val_three]
    show ((p.val * 12 + q.val) * 64 + k.val) * 1024 + s.val = (g.val * 64 + k.val) * 1024 + s.val
    rw [hg])

/-- Splitting the slab axis again: the result at (p, q) is slab `g = 12 p + q` of the merged result. -/
theorem split_out {α : Type} (y : Out3.Idx → α) (h : Out3.ShapeCasts Out4) (p : Fin 2) (q : Fin 12) (g : Fin 24)
    (hg : g.val = p.val * 12 + q.val) (r s : Fin 1024) :
    shapeCast Out4 y h (ix4 p q r s) = y (ix3 g r s) :=
  shapeCast_apply y h (ix4 p q r s) (ix3 g r s) (by
    rw [Shape.rowMajor_val_four, Shape.rowMajor_val_three]
    show (g.val * 1024 + r.val) * 1024 + s.val = ((p.val * 12 + q.val) * 1024 + r.val) * 1024 + s.val
    rw [hg])

/-- Merge the two leading axes, multiply slab by slab, split the axis again: that is the product per (batch, head). -/
theorem perHead_of_perSlab (a : FVec Ideal Lhs4 .f32) (b : FVec Ideal Rhs4 .f32)
    (hA : Lhs4.ShapeCasts Lhs3) (hB : Rhs4.ShapeCasts Rhs3) (hO : Out3.ShapeCasts Out4) :
    shapeCast Out4 (perSlab (shapeCast Lhs3 a hA) (shapeCast Rhs3 b hB)) hO = perHead a b := by
  funext i
  obtain ⟨p, q, r, s, rfl⟩ : ∃ (p : Fin 2) (q : Fin 12) (r s : Fin 1024), i = ix4 p q r s := ⟨i 0, i 1, i 2, i 3, eq_ix4 i⟩
  have hlt : p.val * 12 + q.val < 24 := by have := p.isLt; have := q.isLt; omega
  rw [split_out _ hO p q ⟨p.val * 12 + q.val, hlt⟩ rfl r s]
  show ∑ k : Fin 64, shapeCast Lhs3 a hA (ix3 ⟨p.val * 12 + q.val, hlt⟩ r k) * shapeCast Rhs3 b hB (ix3 ⟨p.val * 12 + q.val, hlt⟩ k s)
    = ∑ k : Fin 64, a (ix4 p q r k) * b (ix4 p q k s)
  refine Finset.sum_congr rfl fun k _ => ?_
  rw [merged_lhs a hA p q _ rfl r k, merged_rhs b hB p q _ rfl k s]

end Cert.HeadProduct

end
-- ==== Proof.RefProduct.lean ====
/-
  The reference program's result is the product per (batch, head).

  The reference is one batched contraction: batch axes 0 and 1 of both operands, the left operand's axis 3 against the
  right operand's axis 2. Read at an index (p, q, r, s) it is `∑ k, x0[p, q, r, k] · x1[p, q, k, s]`, which is `perHead`
  word for word once the two index maps are spelt by coordinates.
-/
import proofs.«123894_j18648747999367_1_alg».proof.Proof.Gen.ReferenceIdeal.Read
import proofs.«123894_j18648747999367_1_alg».proof.Proof.HeadProduct

noncomputable section

namespace Cert.ReferenceIdeal.RefProduct

open Cert.ReferenceIdeal Cert.ReferenceIdeal.Gen Idealize.ShloMosaic Idealize.ShloMosaic.ValueIdx Cert.HeadProduct

/-- The left operand is read at the result's batch, head and row, and the contracted position; -/
theorem left_index (i : S2x12x1024x1024.Idx) (k : Fin 64) :
    Read.lidx_main_v0 i k = ix4 (i 0) (i 1) (i 2) k :=
  funext fun a => Fin.ext (by
    match a with
    | ⟨0, _⟩ => rfl
    | ⟨1, _⟩ => rfl
    | ⟨2, _⟩ => rfl
    | ⟨3, _⟩ => rfl)

/-- the right operand at the result's batch and head, the contracted position, and the result's column. -/
theorem right_index (i : S2x12x1024x1024.Idx) (k : Fin 64) :
    Read.ridx_main_v0 i k = ix4 (i 0) (i 1) k (i 3) :=
  funext fun a => Fin.ext (by
    match a with
    | ⟨0, _⟩ => rfl
    | ⟨1, _⟩ => rfl
    | ⟨2, _⟩ => rfl
    | ⟨3, _⟩ => rfl)

/-- The batched contraction is one matrix product per (batch, head). -/
theorem contraction_eq_perHead (x0 : FVec Ideal Lhs4 .f32) (x1 : FVec Ideal Rhs4 .f32) :
    Read.val_main_v0 (F := Ideal) x0 x1 = perHead x0 x1 := by
  funext i
  rw [Read.val_main_v0_apply]
  show _ = ∑ k : Fin 64, x0 (ix4 (i 0) (i 1) (i 2) k) * x1 (ix4 (i 0) (i 1) k (i 3))
  refine Finset.sum_congr rfl fun k _ => ?_
  rw [left_index, right_index]
  rfl

end Cert.ReferenceIdeal.RefProduct

end
-- ==== Proof.SlabPayload.lean ====
/-
  What the kernel body computes at one grid point, read at an index.

  The body loads a [1, 1024, 64] block and a [1, 64, 1024] block, drops their leading unit axes, changes the float
  format (the identity on the extended reals), multiplies the two matrices into a zero accumulator, and puts the unit
  axis back. So entry (0, r, s) of what it stores is `∑ k, x0[0, r, k] · x1[0, k, s]` over the 64 contracted
  positions: the accumulator's zero is the neutral element of the sum, and the contraction's one axis is re-indexed
  by `Fin 64`.
-/
import proofs.«123894_j18648747999367_1_alg».proof.Proof.Gen.KernelIdeal.Skeleton
import proofs.«123894_j18648747999367_1_alg».proof.Proof.HeadProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SlabPayload

open Cert.KernelIdeal Cert.KernelIdeal.Gen Idealize.ShloMosaic Idealize.ShloMosaic.ValueIdx Cert.HeadProduct

/-- Along its row axis the left factor is read at the result's row; -/
theorem lhs_row (j : S1024x1024.Idx) (q : Cert.KernelIdeal.dot_S1024x64_S64x1024_S1024x1024_1_0_0_1_n_n.contr.Idx) :
    (Cert.KernelIdeal.dot_S1024x64_S64x1024_S1024x1024_1_0_0_1_n_n.lhsIdx j q 0).val = (j 0).val := by
  unfold DotDims.lhsIdx
  rw [dif_neg (show ¬(0 : Fin S1024x64.rank) ∈ Cert.KernelIdeal.dot_S1024x64_S64x1024_S1024x1024_1_0_0_1_n_n.lhsBatch by decide), dif_pos (show (0 : Fin S1024x64.rank) ∈ Cert.KernelIdeal.dot_S1024x64_S64x1024_S1024x1024_1_0_0_1_n_n.lhsNonContracting by decide)]
  rfl
/-- along its column axis at the contracted position. -/
theorem lhs_col (j : S1024x1024.Idx) (q : Cert.KernelIdeal.dot_S1024x64_S64x1024_S1024x1024_1_0_0_1_n_n.contr.Idx) :
    (Cert.KernelIdeal.dot_S1024x64_S64x1024_S1024x1024_1_0_0_1_n_n.lhsIdx j q 1).val = (q ⟨0, by decide⟩).val :=
  Cert.KernelIdeal.dot_S1024x64_S64x1024_S1024x1024_1_0_0_1_n_n.lhsIdx_val_of_single rfl j q
/-- Along its row axis the right factor is read at the contracted position; -/
theorem rhs_row (j : S1024x1024.Idx) (q : Cert.KernelIdeal.dot_S1024x64_S64x1024_S1024x1024_1_0_0_1_n_n.contr.Idx) :
    (Cert.KernelIdeal.dot_S1024x64_S64x1024_S1024x1024_1_0_0_1_n_n.rhsIdx j q 0).val = (q ⟨0, by decide⟩).val :=
  Cert.KernelIdeal.dot_S1024x64_S64x1024_S1024x1024_1_0_0_1_n_n.rhsIdx_val_of_single rfl j q
/-- along its column axis at the result's column. -/
theorem rhs_col (j : S1024x1024.Idx) (q : Cert.KernelIdeal.dot_S1024x64_S64x1024_S1024x1024_1_0_0_1_n_n.contr.Idx) :
    (Cert.KernelIdeal.dot_S1024x64_S64x1024_S1024x1024_1_0_0_1_n_n.rhsIdx j q 1).val = (j 1).val := by
  unfold DotDims.rhsIdx
  rw [dif_neg (show ¬(1 : Fin S64x1024.rank) ∈ Cert.KernelIdeal.dot_S1024x64_S64x1024_S1024x1024_1_0_0_1_n_n.rhsBatch by decide), dif_pos (show (1 : Fin S64x1024.rank) ∈ Cert.KernelIdeal.dot_S1024x64_S64x1024_S1024x1024_1_0_0_1_n_n.rhsNonContracting by decide)]
  rfl

/-- The product of the two matrices into a zero accumulator, at (r, s): the sum over the contracted position. -/
theorem product_apply (a : FVec Ideal S1024x64 .bf16) (b : FVec Ideal S64x1024 .bf16) (r s : Fin 1024) :
    matmul Cert.KernelIdeal.dot_S1024x64_S64x1024_S1024x1024_1_0_0_1_n_n none a b (constant (F := Ideal) S1024x1024 .f32 0x00000000#32) (ix2 r s)
      = ∑ k : Fin 64, a (ix2 r k) * b (ix2 k s) := by
  simp only [matmul]
  rw [Ideal.matmul_constant_zero_apply, ← Equiv.sum_comp (ValueIdx.contrEquiv1 Cert.KernelIdeal.dot_S1024x64_S64x1024_S1024x1024_1_0_0_1_n_n 64 rfl rfl).symm]
  refine Finset.sum_congr rfl fun k _ => ?_
  have hk := ValueIdx.contrEquiv1_symm_val Cert.KernelIdeal.dot_S1024x64_S64x1024_S1024x1024_1_0_0_1_n_n 64 rfl rfl k
  have el : Cert.KernelIdeal.dot_S1024x64_S64x1024_S1024x1024_1_0_0_1_n_n.lhsIdx (ix2 r s) ((ValueIdx.contrEquiv1 Cert.KernelIdeal.dot_S1024x64_S64x1024_S1024x1024_1_0_0_1_n_n 64 rfl rfl).symm k) = ix2 r k := funext fun x => Fin.ext (by
    match x with
    | ⟨0, _⟩ => exact lhs_row _ _
    | ⟨1, _⟩ => exact (lhs_col _ _).trans hk)
  have er : Cert.KernelIdeal.dot_S1024x64_S64x1024_S1024x1024_1_0_0_1_n_n.rhsIdx (ix2 r s) ((ValueIdx.contrEquiv1 Cert.KernelIdeal.dot_S1024x64_S64x1024_S1024x1024_1_0_0_1_n_n 64 rfl rfl).symm k) = ix2 k s := funext fun x => Fin.ext (by
    match x with
    | ⟨0, _⟩ => exact (rhs_row _ _).trans hk
    | ⟨1, _⟩ => exact rhs_col _ _)
  rw [el, er]

/-- What the body stores, at (u, r, s) of the [1, 1024, 1024] block: the (r, s) entry of the product of the two loaded
    blocks' matrices. -/
theorem stored_apply (x0 : Vec Ideal S1x1024x64 .f32) (x1 : Vec Ideal S1x64x1024 .f32) (u : Fin 1) (r s : Fin 1024) :
    k0_pay1 (F := Ideal) x0 x1 (ix3 u r s) = ∑ k : Fin 64, x0 (ix3 (0 : Fin 1) r k) * x1 (ix3 (0 : Fin 1) k s) := by
  unfold k0_pay1
  refine (shapeCast_ab_1ab_apply _ _ u r s).trans ?_
  refine (product_apply _ _ r s).trans ?_
  refine Finset.sum_congr rfl fun k _ => ?_
  show shapeCast S1024x64 x0 _ (ix2 r k) * shapeCast S64x1024 x1 _ (ix2 k s) = _
  rw [shapeCast_1ab_ab_apply, shapeCast_1ab_ab_apply]

/-- When the two loaded blocks are slab `g` of arrays `A` and `B`, the stored block is slab `g` of `perSlab A B`. -/
theorem stored_eq_perSlab (x0 : Vec Ideal S1x1024x64 .f32) (x1 : Vec Ideal S1x64x1024 .f32)
    (A : FVec Ideal Lhs3 .f32) (B : FVec Ideal Rhs3 .f32) (g : Fin 24)
    (h0 : ∀ (r : Fin 1024) (k : Fin 64), x0 (ix3 (0 : Fin 1) r k) = A (ix3 g r k))
    (h1 : ∀ (k : Fin 64) (s : Fin 1024), x1 (ix3 (0 : Fin 1) k s) = B (ix3 g k s))
    (u : Fin 1) (r s : Fin 1024) :
    k0_pay1 (F := Ideal) x0 x1 (ix3 u r s) = perSlab A B (ix3 g r s) := by
  rw [stored_apply]
  show _ = ∑ k : Fin 64, A (ix3 g r k) * B (ix3 g k s)
  exact Finset.sum_congr rfl fun k _ => by rw [h0, h1]

end Cert.KernelIdeal.SlabPayload

end
-- ==== Proof.SlabArray.lean ====
/-
  The kernel's output array after the run, as one function of the two arrays the region finds.

  The grid has 24 points, and point `t` works on slab `t` alone: each of the three windows hands it block (t, 0, 0),
  a whole [1024, 64], [64, 1024] or [1024, 1024] slab. What the point writes back is therefore slab `t` of `perSlab` of
  the two input arrays, and since the 24 slabs tile the output array, the array ends as `perSlab` of them.
-/
import proofs.«123894_j18648747999367_1_alg».proof.Proof.Gen.KernelIdeal.Frame
import proofs.«123894_j18648747999367_1_alg».proof.Proof.SlabPayload
import proofs.«123894_j18648747999367_1_alg».proof.Proof.HeadProduct

set_option maxRecDepth 16384

noncomputable section

namespace Cert.KernelIdeal.SlabArray

open Cert.KernelIdeal Cert.KernelIdeal.Gen Idealize.ShloMosaic Idealize.ShloMosaic.TcCoe Idealize.ShloMosaic.ValueIdx
open Idealize.SL.Sem Cert.HeadProduct
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- At point `t` every window's block index is (t, 0, 0): the point's own slab, whole. -/
theorem block_of_point : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The grid's points are the 24 slabs. -/
theorem point_lt (t : Fin cfg0.N) : t.val < 24 := t.isLt.trans_eq N_0

/-- Entry (u, r, k) of the left window's block at point `t` is entry (t, r, k) of its array; -/
theorem left_block_index (t : Fin cfg0.N) (u : Fin 1) (r : Fin 1024) (k : Fin 64) :
    ((cfg0.win 0).blk t).view.emb (ix3 u r k) = (ix3 ⟨t.val, point_lt t⟩ r k : S24x1024x64.Idx) := by
  obtain ⟨e0, e1, e2, -⟩ := block_of_point t
  funext a; apply Fin.ext
  match a with
  | ⟨0, _⟩ => show win0_0.index t (0 : Fin 3) * 1 + 1 * u.val = t.val; omega
  | ⟨1, _⟩ => show win0_0.index t (1 : Fin 3) * 1024 + 1 * r.val = r.val; omega
  | ⟨2, _⟩ => show win0_0.index t (2 : Fin 3) * 64 + 1 * k.val = k.val; omega

/-- entry (u, k, s) of the right window's block is entry (t, k, s) of its array; -/
theorem right_block_index (t : Fin cfg0.N) (u : Fin 1) (k : Fin 64) (s : Fin 1024) :
    ((cfg0.win 1).blk t).view.emb (ix3 u k s) = (ix3 ⟨t.val, point_lt t⟩ k s : S24x64x1024.Idx) := by
  obtain ⟨-, -, -, e0, e1, e2, -⟩ := block_of_point t
  funext a; apply Fin.ext
  match a with
  | ⟨0, _⟩ => show win0_1.index t (0 : Fin 3) * 1 + 1 * u.val = t.val; omega
  | ⟨1, _⟩ => show win0_1.index t (1 : Fin 3) * 64 + 1 * k.val = k.val; omega
  | ⟨2, _⟩ => show win0_1.index t (2 : Fin 3) * 1024 + 1 * s.val = s.val; omega

/-- and entry (u, r, s) of the output window's block is entry (t, r, s) of the output array. -/
theorem out_block_index (t : Fin cfg0.N) (u : Fin 1) (r s : Fin 1024) :
    ((cfg0.win 2).blk t).view.emb (ix3 u r s) = (ix3 ⟨t.val, point_lt t⟩ r s : S24x1024x1024.Idx) := by
  obtain ⟨-, -, -, -, -, -, e0, e1, e2⟩ := block_of_point t
  funext a; apply Fin.ext
  match a with
  | ⟨0, _⟩ => show win0_2.index t (0 : Fin 3) * 1 + 1 * u.val = t.val; omega
  | ⟨1, _⟩ => show win0_2.index t (1 : Fin 3) * 1024 + 1 * r.val = r.val; omega
  | ⟨2, _⟩ => show win0_2.index t (2 : Fin 3) * 1024 + 1 * s.val = s.val; omega

/-- What point `t` writes back is slab `t` of `perSlab` of the two input arrays as the region finds them. -/
theorem flushed_slab (c : Dev nD) (t : Fin cfg0.N) :
    (dats m 0 c).flushed 2 t
      = ((cfg0.win 2).blk t).view.read (Elt Ideal) (perSlab (V m c main_call0_v0) (V m c main_call0_v1)) := by
  show (cfg0.win 2).cut (grid0.coords t) ((dats m 0 c).after 2 t) = _
  rw [after0_2]
  unfold out0_2
  rw [View.canon_unit_zero zero_offsets]
  simp only [View.ld_unit_zero (S := S1x1024x64) zero_offsets, View.ld_unit_zero (S := S1x64x1024) zero_offsets]
  funext j
  obtain ⟨u, r, s, rfl⟩ : ∃ (u : Fin 1) (r s : Fin 1024), j = ix3 u r s := ⟨j 0, j 1, j 2, eq_ix3 j⟩
  show k0_pay1 (F := Ideal) (iblk m c 0 t) (iblk m c 1 t) (ix3 u r s)
    = perSlab (V m c main_call0_v0) (V m c main_call0_v1) (((cfg0.win 2).blk t).view.emb (ix3 u r s))
  rw [out_block_index t u r s]
  exact SlabPayload.stored_eq_perSlab (iblk m c 0 t) (iblk m c 1 t) (V m c main_call0_v0) (V m c main_call0_v1) ⟨t.val, point_lt t⟩
    (fun r k => by
      show V m c main_call0_v0 (((cfg0.win 0).blk t).view.emb (ix3 (0 : Fin 1) r k)) = _
      rw [left_block_index t 0 r k])
    (fun k s => by
      show V m c main_call0_v1 (((cfg0.win 1).blk t).view.emb (ix3 (0 : Fin 1) k s)) = _
      rw [right_block_index t 0 k s])
    u r s

/-- An index of the output array lies in point `t`'s block exactly when each coordinate lies in the block's range. -/
theorem mem_out_block (t : Fin cfg0.N) (i : S24x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_call0_v2).slice (win0_2.rect t)).set ↔ _
  rw [View.set_slice_whole, Rect.mem_set_unit]
  exact Iff.rfl

/-- Every index (g, r, s) of the output array lies in the block of point `g`, which is written back. -/
theorem covered (i : S24x1024x1024.Idx) :
    ∃ t : Fin cfg0.N, (cfg0.win 2).flush t = true ∧ i ∈ ((cfg0.win 2).blk t).view.set := by
  have h0 : (i 0).val < 24 := (i 0).isLt
  have h1 : (i 1).val < 1024 := (i 1).isLt
  have h2 : (i 2).val < 1024 := (i 2).isLt
  refine ⟨⟨(i 0).val, h0.trans_eq N_0.symm⟩, flush0_2 _, ?_⟩
  rw [mem_out_block]
  obtain ⟨-, -, -, -, -, -, e0, e1, e2⟩ := block_of_point ⟨(i 0).val, h0.trans_eq N_0.symm⟩
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0]; show (i 0).val * 1 ≤ (i 0).val ∧ (i 0).val < (i 0).val * 1 + 1; omega
  | ⟨1, _⟩ =>
    show win0_2.index ⟨(i 0).val, _⟩ (1 : Fin 3) * 1024 ≤ (i 1).val ∧ (i 1).val < win0_2.index ⟨(i 0).val, _⟩ (1 : Fin 3) * 1024 + 1024
    rw [e1]; omega
  | ⟨2, _⟩ =>
    show win0_2.index ⟨(i 0).val, _⟩ (2 : Fin 3) * 1024 ≤ (i 2).val ∧ (i 2).val < win0_2.index ⟨(i 0).val, _⟩ (2 : Fin 3) * 1024 + 1024
    rw [e2]; omega

/-- The output array after the run: one matrix product per slab of the two input arrays. -/
theorem out_array (c : Dev nD) :
    (dats m 0 c).arrAt 2 cfg0.N = perSlab (V m c main_call0_v0) (V m c main_call0_v1) :=
  (dats m 0 c).arrAt_eq_of_cover 2 (perSlab (V m c main_call0_v0) (V m c main_call0_v1))
    (fun t _ => flushed_slab m c t) covered

end Cert.KernelIdeal.SlabArray

end
-- ==== Proof.KernelRun.lean ====
/-
  The kernel program's run, read: its result is the product per (batch, head) of its two arguments.

  Around the one region the program merges batch and head of each operand into 24 slabs (two reshapes before), and
  splits the slab axis of the region's output again (one reshape after). The region leaves `perSlab` of the merged
  operands in its output array; merging, multiplying slab by slab and splitting is `perHead`.
-/
import proofs.«123894_j18648747999367_1_alg».proof.Proof.SlabArray
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.ShloMosaic.ValueIdx
open Idealize.SL.Sem Cert.HeadProduct Idealize.ShloMosaic.StableHlo
open Idealize.ShloMosaic.Pipeline (Dat)

variable (m : (ℓ : Loc nD τ sig) → Buf (Elt Ideal) ℓ) (ρ : Dev nD → PrngReg)

/-- The region's left array is the left argument with batch and head merged; -/
theorem left_merged (c : Dev nD) :
    (V m c main_call0_v0 : FVec Ideal Lhs3 .f32)
      = shapeCast Lhs3 (m ((c : Thread nD τ).loc main_arg0)) Facts₀.shapeCasts_S2x12x1024x64_S24x1024x64 := by
  show StableHlo.after hostOps0 (fun b => m (c, b)) (Proc.devRef .tc main_call0_v0) = _
  after_results
  rfl

/-- its right array is the right argument with batch and head merged. -/
theorem right_merged (c : Dev nD) :
    (V m c main_call0_v1 : FVec Ideal Rhs3 .f32)
      = shapeCast Rhs3 (m ((c : Thread nD τ).loc main_arg1)) Facts₀.shapeCasts_S2x12x64x1024_S24x64x1024 := by
  show StableHlo.after hostOps0 (fun b => m (c, b)) (Proc.devRef .tc main_call0_v1) = _
  after_results
  rfl

/-- The program's result is the region's output array with the slab axis split into batch and head. -/
theorem result_split (c : Dev nD) :
    (Pipeline.afterTail₀ cfgs (dats m) 0 (V0 m) [hostOps1] c main_v0 : FVec Ideal Out4 .f32)
      = shapeCast Out4 ((dats m 0 c).arrAt 2 cfg0.N) Facts₀.shapeCasts_S24x1024x1024_S2x12x1024x1024 := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v2)
      = (dats m 0 c).arrAt 2 cfg0.N :=
    Pipeline.withArrays_arr spec0 launch0.win.arr_inj c _ _ 2
  exact congrArg (fun a : FVec Ideal Out3 .f32 => shapeCast Out4 a Facts₀.shapeCasts_S24x1024x1024_S2x12x1024x1024) e

/-- The program's result: one matrix product per (batch, head) of the two arguments. -/
theorem result_eq (c : Dev nD) :
    (Pipeline.afterTail₀ cfgs (dats m) 0 (V0 m) [hostOps1] c main_v0 : FVec Ideal Out4 .f32)
      = perHead (m ((c : Thread nD τ).loc main_arg0)) (m ((c : Thread nD τ).loc main_arg1)) := by
  rw [result_split, SlabArray.out_array, left_merged, right_merged]
  exact perHead_of_perSlab _ _ _ _ _

/-- Every weakly fair execution of the kernel program terminates with its result at `perHead` of its first two arguments
    and all four arguments unchanged. -/
theorem run : θ_run defs (onTc (τ := τ) (main (F := Ideal))) ⟨m, fun _ => 0, ρ⟩ fun r => ∀ c : Dev nD,
      r.2.mem ((c.tc : Thread nD τ).loc main_v0) = perHead (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  The certificate of a batched matrix product.

  Both programs take x1 : f32[2, 12, 1024, 64] and x2 : f32[2, 12, 64, 1024] (and two one-element arrays neither reads) and
  return f32[2, 12, 1024, 1024]. The reference contracts x1's last axis against x2's third, batch and head carried
  along: entry (p, q, r, s) is `∑ k, x1[p, q, r, k] · x2[p, q, k, s]`. The kernel program merges batch and head into 24
  slabs, runs a grid of 24 points, point `t` multiplying slab `t` of the one operand by slab `t` of the other after a
  change of float format (the identity on the extended reals) into a zero accumulator, and splits the slab axis of the
  output again. Slab `12 p + q` of a merged array is matrix (p, q) of the original, so over the extended reals the two
  results are the same finite sums of the same products: no algebraic law beyond that is used, and the precondition
  (finite inputs) is never opened.

  The modules: `HeadProduct` states the result both ways (`perHead`, `perSlab`) and proves them equal through the
  reshapes; `RefProduct` reads the reference's contraction as `perHead`; `SlabPayload` reads what the kernel body stores
  as a slab of `perSlab`; `SlabArray` assembles the 24 written-back blocks into the output array; `KernelRun` carries the
  array through the reshapes around the region. The three frame claims are the frame runs themselves, and the kernel's
  idealization rewrote nothing, so there is nothing to preserve.
-/
import proofs.«123894_j18648747999367_1_alg».proof.Defs
import proofs.«123894_j18648747999367_1_alg».proof.Proof.Gen.Kernel
import proofs.«123894_j18648747999367_1_alg».proof.Proof.Gen.Kernel.Skeleton
import proofs.«123894_j18648747999367_1_alg».proof.Proof.Gen.Kernel.Launch
import proofs.«123894_j18648747999367_1_alg».proof.Proof.Gen.Kernel.Points
import proofs.«123894_j18648747999367_1_alg».proof.Proof.Gen.Kernel.Frame
import proofs.«123894_j18648747999367_1_alg».proof.Proof.Gen.KernelIdeal
import proofs.«123894_j18648747999367_1_alg».proof.Proof.Gen.KernelIdeal.Skeleton
import proofs.«123894_j18648747999367_1_alg».proof.Proof.Gen.KernelIdeal.Launch
import proofs.«123894_j18648747999367_1_alg».proof.Proof.Gen.KernelIdeal.Points
import proofs.«123894_j18648747999367_1_alg».proof.Proof.Gen.KernelIdeal.Frame
import proofs.«123894_j18648747999367_1_alg».proof.Proof.Gen.ReferenceIdeal
import proofs.«123894_j18648747999367_1_alg».proof.Proof.Gen.Pre_finite_inputs
import proofs.«123894_j18648747999367_1_alg».proof.Proof.Gen.ReferenceIdeal.Run
import proofs.«123894_j18648747999367_1_alg».proof.Proof.Gen.ReferenceIdeal.Read
import proofs.«123894_j18648747999367_1_alg».proof.Proof.HeadProduct
import proofs.«123894_j18648747999367_1_alg».proof.Proof.RefProduct
import proofs.«123894_j18648747999367_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the product per (batch, head) of their first two arguments. -/
theorem algebraic : Cert.algebraic_KernelIdeal_ReferenceIdeal := by
  intro m ρ m' ρ' _ hagree
  refine ⟨fun c => Cert.HeadProduct.perHead (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, (hagree c).1, (hagree c).2.1]
  exact Cert.ReferenceIdeal.RefProduct.contraction_eq_perHead _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
